-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x300x4x32x32 : Shape := ⟨5, ![8, 300, 4, 32, 32]⟩
abbrev S8x300x32x32 : Shape := ⟨4, ![8, 300, 32, 32]⟩
abbrev S_ : Shape := ⟨0, ![]⟩

class Facts : Prop where
  bcast_S_S8x300x4x32x32 : S_.BroadcastsInDim S8x300x4x32x32 (![] : Fin 0 → Fin S8x300x4x32x32.rank)
  reducesTo_S8x300x4x32x32_S_d0_1_2_3_4 : S8x300x4x32x32.ReducesTo [0, 1, 2, 3, 4] S_
  h_S_ : 0 < S_.numel
  bcast_S_S8x300x32x32 : S_.BroadcastsInDim S8x300x32x32 (![] : Fin 0 → Fin S8x300x32x32.rank)
  reducesTo_S8x300x32x32_S_d0_1_2_3 : S8x300x32x32.ReducesTo [0, 1, 2, 3] S_

variable [Facts]

def fn {F : FTy → Type} [FloatOps F] (main_arg0 : FVec F S8x300x4x32x32 .f32) (main_arg1 : FVec F S8x300x4x32x32 .f32) (main_arg2 : FVec F S8x300x32x32 .f32) : IVec S_ 1 :=
  let main_v0 : FVec F S8x300x4x32x32 .f32 := Host.absf main_arg0
  let main_cst : FVec F S_ .f32 := constant S_ .f32 0x7F800000#32
  let main_v1 : FVec F S8x300x4x32x32 .f32 := broadcastInDim S8x300x4x32x32 ![] bcast_S_S8x300x4x32x32 main_cst
  let main_v2 : IVec S8x300x4x32x32 1 := cmpf .olt main_v0 main_v1
  let main_c : IVec S_ 1 := constantI S_ 1 1#1
  let main_v3 : IVec S_ 1 := (fun x v => Host.reduce IntOp.andi x v reducesTo_S8x300x4x32x32_S_d0_1_2_3_4 h_S_) main_v2 main_c
  let main_v4 : FVec F S8x300x4x32x32 .f32 := Host.absf main_arg1
  let main_cst_0 : FVec F S_ .f32 := constant S_ .f32 0x7F800000#32
  let main_v5 : FVec F S8x300x4x32x32 .f32 := broadcastInDim S8x300x4x32x32 ![] bcast_S_S8x300x4x32x32 main_cst_0
  let main_v6 : IVec S8x300x4x32x32 1 := cmpf .olt main_v4 main_v5
  let main_c_1 : IVec S_ 1 := constantI S_ 1 1#1
  let main_v7 : IVec S_ 1 := (fun x v => Host.reduce IntOp.andi x v reducesTo_S8x300x4x32x32_S_d0_1_2_3_4 h_S_) main_v6 main_c_1
  let main_v8 : IVec S_ 1 := andi main_v3 main_v7
  let main_v9 : FVec F S8x300x32x32 .f32 := Host.absf main_arg2
  let main_cst_2 : FVec F S_ .f32 := constant S_ .f32 0x7F800000#32
  let main_v10 : FVec F S8x300x32x32 .f32 := broadcastInDim S8x300x32x32 ![] bcast_S_S8x300x32x32 main_cst_2
  let main_v11 : IVec S8x300x32x32 1 := cmpf .olt main_v9 main_v10
  let main_c_3 : IVec S_ 1 := constantI S_ 1 1#1
  let main_v12 : IVec S_ 1 := (fun x v => Host.reduce IntOp.andi x v reducesTo_S8x300x32x32_S_d0_1_2_3 h_S_) main_v11 main_c_3
  let main_v13 : IVec S_ 1 := andi main_v8 main_v12
  main_v13
-- ==== Kernel.lean ====
abbrev S8x300x4x32x32 : Shape := ⟨5, ![8, 300, 4, 32, 32]⟩
abbrev S8x300x32x32 : Shape := ⟨4, ![8, 300, 32, 32]⟩
abbrev S8x1x128 : Shape := ⟨3, ![8, 1, 128]⟩
abbrev S1x60x4x32x32 : Shape := ⟨5, ![1, 60, 4, 32, 32]⟩
abbrev S1x60x32x32 : Shape := ⟨4, ![1, 60, 32, 32]⟩
abbrev S1x1x128 : Shape := ⟨3, ![1, 1, 128]⟩
abbrev S1x60x1x32x32 : Shape := ⟨5, ![1, 60, 1, 32, 32]⟩
abbrev S1x60x4x32 : Shape := ⟨4, ![1, 60, 4, 32]⟩
abbrev S1x60x4 : Shape := ⟨3, ![1, 60, 4]⟩
abbrev S1x60 : Shape := ⟨2, ![1, 60]⟩
abbrev S1 : Shape := ⟨1, ![1]⟩
abbrev S8x1x1 : Shape := ⟨3, ![8, 1, 1]⟩
abbrev S8 : Shape := ⟨1, ![8]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S8x300x4x32x32, .f32⟩
  | .hbm, ⟨1, _⟩ => ⟨S8x300x4x32x32, .f32⟩
  | .hbm, ⟨2, _⟩ => ⟨S8x300x32x32, .f32⟩
  | .hbm, ⟨3, _⟩ => ⟨S8x1x128, .f32⟩
  | .hbm, ⟨4, _⟩ => ⟨S8x1x1, .f32⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x60x4x32x32, .f32⟩
  | .local _ .vmem, ⟨1, _⟩ => ⟨S1x60x4x32x32, .f32⟩
  | .local _ .vmem, ⟨2, _⟩ => ⟨S1x60x4x32x32, .f32⟩
  | .local _ .vmem, ⟨3, _⟩ => ⟨S1x60x4x32x32, .f32⟩
  | .local _ .vmem, ⟨4, _⟩ => ⟨S1x60x32x32, .f32⟩
  | .local _ .vmem, ⟨5, _⟩ => ⟨S1x60x32x32, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | _, _ => ⟨S8x300x4x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v22 : BitVec 1 := Scalar.cmpi .eq arg1 c4_i32
  let v23 : BitVec 32 := Scalar.extui v22
  let c0_i32_23 : BitVec 32 := 0#32
  let v24 : BitVec 1 := Scalar.cmpi .ne v23 c0_i32_23
  v24

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x60x4x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x60x4x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x60x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S1x60x4x32x32_S1x60x4x32x32_0_0_0_0_0 : ∀ a, (![0, 0, 0, 0, 0] : Fin 5 → Nat) a + S1x60x4x32x32.size a ≤ S1x60x4x32x32.size a
  h_S1x60x4x32x32 : 0 < S1x60x4x32x32.numel
  inb_S1x60x32x32_S1x60x32x32_0_0_0_0 : ∀ a, (![0, 0, 0, 0] : Fin 4 → Nat) a + S1x60x32x32.size a ≤ S1x60x32x32.size a
  h_S1x60x32x32 : 0 < S1x60x32x32.numel
  shapeCasts_S1x60x32x32_S1x60x1x32x32 : S1x60x32x32.ShapeCasts S1x60x1x32x32
  broadcasts_S1x60x1x32x32_S1x60x4x32x32 : S1x60x1x32x32.Broadcasts S1x60x4x32x32
  reduces_S1x60x4x32x32_S1x60x4x32 : S1x60x4x32x32.Reduces [4] S1x60x4x32
  reduces_S1x60x4x32_S1x60x4 : S1x60x4x32.Reduces [3] S1x60x4
  reduces_S1x60x4_S1x60 : S1x60x4.Reduces [2] S1x60
  reduces_S1x60_S1 : S1x60.Reduces [1] S1
  inpos_S1_p0 : ∀ a, (![0] : Fin 1 → Nat) a < S1.size a
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x60x4x32x32.size a ≤ S8x300x4x32x32.size a
  hwx0_0 : ∀ i : grid0.Coords, EltTy.bits .f32 = 32 ∨ (Rect.block (s := S8x300x4x32x32) S1x60x4x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x60x4x32x32.size a ≤ S8x300x4x32x32.size a
  hwx0_1 : ∀ i : grid0.Coords, EltTy.bits .f32 = 32 ∨ (Rect.block (s := S8x300x4x32x32) S1x60x4x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x60x32x32.size a ≤ S8x300x32x32.size a
  hwx0_2 : ∀ i : grid0.Coords, EltTy.bits .f32 = 32 ∨ (Rect.block (s := S8x300x32x32) S1x60x32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

abbrev win0_0 : Pipeline.Window sig grid0 :=
  Pipeline.Window.ofSpec (Memref.whole main_arg0) S1x60x4x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x60x4x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x60x32x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x300x4x32x32 : Shape := ⟨5, ![8, 300, 4, 32, 32]⟩
abbrev S8x300x32x32 : Shape := ⟨4, ![8, 300, 32, 32]⟩
abbrev S8x300x1x32x32 : Shape := ⟨5, ![8, 300, 1, 32, 32]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x300x4x32x32, .f32⟩
  | .hbm, ⟨1, _⟩ => ⟨S8x300x4x32x32, .f32⟩
  | .hbm, ⟨2, _⟩ => ⟨S8x300x32x32, .f32⟩
  | .hbm, ⟨3, _⟩ => ⟨S8x300x4x32x32, .f32⟩
  | .hbm, ⟨4, _⟩ => ⟨S8x300x4x32x32, .f32⟩
  | .hbm, ⟨5, _⟩ => ⟨S8x300x1x32x32, .f32⟩
  | .hbm, ⟨6, _⟩ => ⟨S8x300x4x32x32, .f32⟩
  | .hbm, ⟨7, _⟩ => ⟨S8x300x4x32x32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S8x300x4x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S8x300x32x32_S8x300x1x32x32_0_1_3_4 : S8x300x32x32.BroadcastsInDim S8x300x1x32x32 (![0, 1, 3, 4] : Fin 4 → Fin S8x300x1x32x32.rank)
  bcast_S8x300x1x32x32_S8x300x4x32x32_0_1_2_3_4 : S8x300x1x32x32.BroadcastsInDim S8x300x4x32x32 (![0, 1, 2, 3, 4] : Fin 5 → Fin S8x300x4x32x32.rank)
  reducesTo_S8x300x4x32x32_S_d0_1_2_3_4 : S8x300x4x32x32.ReducesTo [0, 1, 2, 3, 4] S_
  h_S_ : 0 < S_.numel

variable [Facts₀]

class Facts : Prop extends Facts₀ where

variable [Facts]
-- ==== Proof.Stores.lean ====
/-
  What the kernel's stores leave behind at a grid point, as values of what it loaded.

  The body has three courses, by the position s of the point along the accumulated axis: at s = 0 it first resets the
  accumulator to zero, at s = 4 it finally copies the accumulator to the output block, and in between it does neither.
  In every course it loads the two data tiles and the weight tile, reads the accumulator, and stores back one value:
  the update of what it read (the update is the function `k0_pay2` of the loads). So after the point the accumulator
  holds the update of the zero value (s = 0) or of what the point before left (s > 0), and at s = 4 the output block
  holds that same value, read back from the accumulator after the store. All buffers are read and written whole, from
  the origin, so a load returns the buffer's contents and a store replaces them.
-/
import proofs.«143269_j33758442946604_1_alg».proof.Proof.Gen.KernelIdeal.Frame
import Idealize.ShloMosaic.Lib.Pipeline.Value
import Idealize.ShloMosaic.Lib.Tactic

set_option maxRecDepth 16384

noncomputable section

namespace Cert.KernelIdeal.Stores

open Cert.KernelIdeal Cert.KernelIdeal.Gen
open Idealize.ShloMosaic Idealize.ShloMosaic.TcCoe Idealize.ShloMosaic.Tactic Idealize.SL.Sem

variable {F : FTy → Type} [FloatOps F]

/-- The origin of a rank-3, rank-4, rank-5 buffer: every access of the body starts there. -/
theorem origin3 : (![0, 0, 0] : Fin 3 → Nat) = fun _ => 0 := funext fun a => by fin_cases a <;> rfl
theorem origin4 : (![0, 0, 0, 0] : Fin 4 → Nat) = fun _ => 0 := funext fun a => by fin_cases a <;> rfl
theorem origin5 : (![0, 0, 0, 0, 0] : Fin 5 → Nat) = fun _ => 0 := funext fun a => by fin_cases a <;> rfl

/-- At s = 0 the accumulator ends at the update of the zero value it was just reset to. -/
theorem acc_first (c : Dev nD) (i : grid0.Coords) (arg2 : Memref sig .tc .vmem S1x60x4x32x32 .f32) (harg2 : arg2.IsWhole) (arg3 : Memref sig .tc .vmem S1x60x4x32x32 .f32) (harg3 : arg3.IsWhole) (arg4 : Memref sig .tc .vmem S1x60x32x32 .f32) (harg4 : arg4.IsWhole) (arg5 : Memref sig .tc .vmem S1x1x128 .f32) (harg5 : arg5.IsWhole) (arg6 : Memref sig .tc .vmem S1x1x128 .f32) (harg6 : arg6.IsWhole) (hc0 : cond0_0 i) (hc1 : ¬cond0_1 i)
    (x0 : Vec F S1x60x4x32x32 .f32) (x1 : Vec F S1x60x4x32x32 .f32) (x2 : Vec F S1x60x32x32 .f32) :
    sout0_A_0 c i arg2 harg2 arg3 harg3 arg4 harg4 arg5 harg5 arg6 harg6 hc0 hc1 x0 x1 x2 = k0_pay2 x1 x0 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1x128) origin3, View.readCov_unit_zero (S := S1x1x128) _ origin3]
  simp only [View.readAt_eq_ld, harg2.read_unread, harg3.read_unread, harg4.read_unread, harg6.read_unread,
    View.ld_unit_zero (S := S1x60x4x32x32) origin5, View.ld_unit_zero (S := S1x60x32x32) origin4, View.ld_unit_zero (S := S1x1x128) origin3]

/-- At 0 < s < 4 the accumulator ends at the update of what it held. -/
theorem acc_middle (c : Dev nD) (i : grid0.Coords) (arg2 : Memref sig .tc .vmem S1x60x4x32x32 .f32) (harg2 : arg2.IsWhole) (arg3 : Memref sig .tc .vmem S1x60x4x32x32 .f32) (harg3 : arg3.IsWhole) (arg4 : Memref sig .tc .vmem S1x60x32x32 .f32) (harg4 : arg4.IsWhole) (arg5 : Memref sig .tc .vmem S1x1x128 .f32) (harg5 : arg5.IsWhole) (arg6 : Memref sig .tc .vmem S1x1x128 .f32) (harg6 : arg6.IsWhole) (hc0 : ¬cond0_0 i) (hc1 : ¬cond0_1 i)
    (x0 : Vec F S1x60x4x32x32 .f32) (x1 : Vec F S1x60x4x32x32 .f32) (x2 : Vec F S1x60x32x32 .f32) (xs0 : Vec F S1x1x128 .f32) :
    sout0_B_0 c i arg2 harg2 arg3 harg3 arg4 harg4 arg5 harg5 arg6 harg6 hc0 hc1 x0 x1 x2 xs0 = k0_pay2 x1 x0 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero origin3]
  simp only [View.readAt_eq_ld, harg2.read_unread, harg3.read_unread, harg4.read_unread, harg6.read_unread,
    View.ld_unit_zero (S := S1x60x4x32x32) origin5, View.ld_unit_zero (S := S1x60x32x32) origin4, View.ld_unit_zero (S := S1x1x128) origin3]

/-- At s = 4 likewise, -/
theorem acc_last (c : Dev nD) (i : grid0.Coords) (arg2 : Memref sig .tc .vmem S1x60x4x32x32 .f32) (harg2 : arg2.IsWhole) (arg3 : Memref sig .tc .vmem S1x60x4x32x32 .f32) (harg3 : arg3.IsWhole) (arg4 : Memref sig .tc .vmem S1x60x32x32 .f32) (harg4 : arg4.IsWhole) (arg5 : Memref sig .tc .vmem S1x1x128 .f32) (harg5 : arg5.IsWhole) (arg6 : Memref sig .tc .vmem S1x1x128 .f32) (harg6 : arg6.IsWhole) (hc0 : ¬cond0_0 i) (hc1 : cond0_1 i)
    (x0 : Vec F S1x60x4x32x32 .f32) (x1 : Vec F S1x60x4x32x32 .f32) (x2 : Vec F S1x60x32x32 .f32) (xs0 : Vec F S1x1x128 .f32) :
    sout0_C_0 c i arg2 harg2 arg3 harg3 arg4 harg4 arg5 harg5 arg6 harg6 hc0 hc1 x0 x1 x2 xs0 = k0_pay2 x1 x0 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero origin3]
  simp only [View.readAt_eq_ld, harg2.read_unread, harg3.read_unread, harg4.read_unread, harg6.read_unread,
    View.ld_unit_zero (S := S1x60x4x32x32) origin5, View.ld_unit_zero (S := S1x60x32x32) origin4, View.ld_unit_zero (S := S1x1x128) origin3]

/-- and the output block ends at the same value: the accumulator read back after its store. -/
theorem out_last (c : Dev nD) (i : grid0.Coords) (arg2 : Memref sig .tc .vmem S1x60x4x32x32 .f32) (harg2 : arg2.IsWhole) (arg3 : Memref sig .tc .vmem S1x60x4x32x32 .f32) (harg3 : arg3.IsWhole) (arg4 : Memref sig .tc .vmem S1x60x32x32 .f32) (harg4 : arg4.IsWhole) (arg5 : Memref sig .tc .vmem S1x1x128 .f32) (harg5 : arg5.IsWhole) (arg6 : Memref sig .tc .vmem S1x1x128 .f32) (harg6 : arg6.IsWhole) (hc0 : ¬cond0_0 i) (hc1 : cond0_1 i)
    (x0 : Vec F S1x60x4x32x32 .f32) (x1 : Vec F S1x60x4x32x32 .f32) (x2 : Vec F S1x60x32x32 .f32) (xs0 : Vec F S1x1x128 .f32) :
    out0_C_3 c i arg2 harg2 arg3 harg3 arg4 harg4 arg5 harg5 arg6 harg6 hc0 hc1 x0 x1 x2 xs0 = k0_pay2 x1 x0 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero origin3, View.readCov_unit_zero (S := S1x1x128) _ origin3]
  simp only [View.readAt_eq_ld, harg2.read_unread, harg3.read_unread, harg4.read_unread, harg6.read_unread,
    View.ld_unit_zero (S := S1x60x4x32x32) origin5, View.ld_unit_zero (S := S1x60x32x32) origin4, View.ld_unit_zero (S := S1x1x128) origin3]

end Cert.KernelIdeal.Stores

end
-- ==== Proof.LibIdxSums.lean ====
/-
  Sums over the index set of an array, written coordinate by coordinate.

  An index of a rank-r array is the tuple of its r coordinates, so the index set is the product of the coordinate
  ranges and, over a commutative monoid, a sum over all indices is the r-fold nested sum over the coordinates
  (outermost axis first). Ranks 1, 3, 4 and 5 are here; rank 2 is the library's `ValueIdx.sum_idx2`.
-/
import Idealize.ShloMosaic.Lib.ValueIdx

noncomputable section

open scoped BigOperators

namespace Idealize.ShloMosaic.IdxSums

open Idealize.ShloMosaic Idealize.ShloMosaic.ValueIdx

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the fivefold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

end Idealize.ShloMosaic.IdxSums

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.WeightedSquares.lean ====
/-
  The quantity both programs compute, as mathematics over the extended reals.

  For arrays o, c of shape [8, 300, 4, 32, 32] and a weight array v of shape [8, 300, 32, 32], one entry (b, s, k, h, x)
  contributes (c − o)·(c − o)·v[b, s, h, x]. The loss is the sum of all contributions (divided by 1024, which both
  programs do last and alike). The kernel forms that sum in pieces: a tile is the 60 consecutive values of s of one b,
  a batch total is the sum of its 5 tiles taken one after the other, and the 8 batch totals are added at the end.
  Since addition of extended reals is commutative and associative, the pieces add up to the one sum over all entries,
  whatever the entries are (no finiteness is used).
-/
import proofs.«143269_j33758442946604_1_alg».proof.Proof.LibIdxSums
import proofs.«143269_j33758442946604_1_alg».proof.Proof.LibBlockSums

noncomputable section

open scoped BigOperators

namespace Cert.WeightedSquares

open Idealize.ShloMosaic Idealize.ShloMosaic.ValueIdx Idealize.ShloMosaic.IdxSums Finset

/-- What one entry contributes: the squared difference times the weight. -/
def contrib (o c v : EReal) : EReal := (c - o) * (c - o) * v

/-- The sum of a tile's contributions: 60 values of s, all of k, h, x, of blocks of shape [1, 60, 4, 32, 32] and
    [1, 60, 32, 32]. -/
def tileTotal (c o : (⟨5, ![1, 60, 4, 32, 32]⟩ : Shape).Idx → EReal) (v : (⟨4, ![1, 60, 32, 32]⟩ : Shape).Idx → EReal) : EReal :=
  ∑ s : Fin 60, ∑ k : Fin 4, ∑ h : Fin 32, ∑ x : Fin 32,
    contrib (o (ix5 (0 : Fin 1) s k h x)) (c (ix5 (0 : Fin 1) s k h x)) (v (ix4 (0 : Fin 1) s h x))

section Arrays

variable (O C : (⟨5, ![8, 300, 4, 32, 32]⟩ : Shape).Idx → EReal) (V : (⟨4, ![8, 300, 32, 32]⟩ : Shape).Idx → EReal)

/-- The contributions of one (b, s), summed over k, h, x. -/
def rowTotal (b : Fin 8) (s : Fin 300) : EReal :=
  ∑ k : Fin 4, ∑ h : Fin 32, ∑ x : Fin 32, contrib (O (ix5 b s k h x)) (C (ix5 b s k h x)) (V (ix4 b s h x))

/-- The same with s a natural number, zero from 300 on. -/
def rowAt (b : Fin 8) (n : ℕ) : EReal := if h : n < 300 then rowTotal O C V b ⟨n, h⟩ else 0

/-- Tile k of batch b: the rows 60k, …, 60k + 59. -/
def tileAt (b : Fin 8) (k : ℕ) : EReal := ∑ j : Fin 60, rowAt O C V b (60 * k + j.val)

/-- What a batch has accumulated after its tiles 0, …, k. -/
def runningTotal (b : Fin 8) (k : ℕ) : EReal := ∑ k' ∈ range (k + 1), tileAt O C V b k'

/-- All of batch b. -/
def batchTotal (b : Fin 8) : EReal := ∑ s : Fin 300, rowTotal O C V b s

theorem runningTotal_zero (b : Fin 8) : runningTotal O C V b 0 = tileAt O C V b 0 := by
  unfold runningTotal; rw [sum_range_one]

theorem runningTotal_succ (b : Fin 8) (k : ℕ) :
    runningTotal O C V b (k + 1) = runningTotal O C V b k + tileAt O C V b (k + 1) := by
  unfold runningTotal; rw [sum_range_succ]

/-- The five tiles of a batch, added one after the other, are the batch. -/
theorem runningTotal_four (b : Fin 8) : runningTotal O C V b 4 = batchTotal O C V b := by
  unfold runningTotal tileAt batchTotal
  rw [Idealize.ShloMosaic.BlockSums.sum_blocks (rowAt O C V b) 60 5, ← Fin.sum_univ_eq_sum_range (rowAt O C V b) (5 * 60)]
  refine Fintype.sum_congr _ _ fun s => ?_
  unfold rowAt
  rw [dif_pos s.isLt]

/-- The eight batches together are the sum over every entry of the arrays. -/
theorem sum_batchTotal :
    ∑ b : Fin 8, batchTotal O C V b
      = ∑ i : (⟨5, ![8, 300, 4, 32, 32]⟩ : Shape).Idx, contrib (O i) (C i) (V (ix4 (i 0) (i 1) (i 3) (i 4))) := by
  rw [sum_idx5]
  rfl

end Arrays

end Cert.WeightedSquares

end
-- ==== Proof.TileValue.lean ====
/-
  What one step of the kernel adds to its accumulator, at the ideal values.

  At a grid point the kernel holds a tile of each array: c and o of shape [1, 60, 4, 32, 32] and the weights v of shape
  [1, 60, 32, 32]. It forms (c − o)·(c − o), multiplies by the weights repeated along the channel axis, and sums the
  result one axis at a time, innermost first, down to a single number; that number, repeated over the 128 lanes of the
  accumulator, is added to what the accumulator held. Read at any lane, the new accumulator is therefore the old one
  plus the tile's total contribution.
-/
import proofs.«143269_j33758442946604_1_alg».proof.Proof.Gen.KernelIdeal.Skeleton
import proofs.«143269_j33758442946604_1_alg».proof.Proof.WeightedSquares
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx Cert.WeightedSquares

/-! ## The index a one-axis sum reads: the kept coordinates with the summed one put back -/

theorem lift_x (r : S1x60x4x32x32.Reduces [4] S1x60x4x32) (s : Fin 60) (k : Fin 4) (h : Fin 32) (x : Fin 32) :
    r.lift (ix4 (0 : Fin 1) s k h) x = ix5 (0 : Fin 1) s k h x :=
  funext fun e => match e with
    | ⟨0, _⟩ => Fin.ext rfl | ⟨1, _⟩ => Fin.ext rfl | ⟨2, _⟩ => Fin.ext rfl | ⟨3, _⟩ => Fin.ext rfl | ⟨4, _⟩ => Fin.ext rfl

theorem lift_h (r : S1x60x4x32.Reduces [3] S1x60x4) (s : Fin 60) (k : Fin 4) (h : Fin 32) :
    r.lift (ix3 (0 : Fin 1) s k) h = ix4 (0 : Fin 1) s k h :=
  funext fun e => match e with
    | ⟨0, _⟩ => Fin.ext rfl | ⟨1, _⟩ => Fin.ext rfl | ⟨2, _⟩ => Fin.ext rfl | ⟨3, _⟩ => Fin.ext rfl

theorem lift_k (r : S1x60x4.Reduces [2] S1x60) (s : Fin 60) (k : Fin 4) :
    r.lift (ix2 (0 : Fin 1) s) k = ix3 (0 : Fin 1) s k :=
  funext fun e => match e with
    | ⟨0, _⟩ => Fin.ext rfl | ⟨1, _⟩ => Fin.ext rfl | ⟨2, _⟩ => Fin.ext rfl

theorem lift_s (r : S1x60.Reduces [1] S1) (s : Fin 60) :
    r.lift (ix1 (0 : Fin 1)) s = ix2 (0 : Fin 1) s :=
  funext fun e => match e with
    | ⟨0, _⟩ => Fin.ext rfl | ⟨1, _⟩ => Fin.ext rfl

/-! ## The weights repeated along the channel axis -/

/-- The weight tile [1, 60, 32, 32], given a unit channel axis and repeated four times along it, reads at
    (0, s, k, h, x) the weight at (0, s, h, x), whatever k. -/
theorem weight_apply {α : Type} (v : S1x60x32x32.Idx → α) (h1 : S1x60x32x32.ShapeCasts S1x60x1x32x32)
    (h2 : S1x60x1x32x32.Broadcasts S1x60x4x32x32) (s : Fin 60) (k : Fin 4) (h : Fin 32) (x : Fin 32) :
    broadcastTo S1x60x4x32x32 (shapeCast S1x60x1x32x32 v h1) h2 (ix5 (0 : Fin 1) s k h x) = v (ix4 (0 : Fin 1) s h x) := by
  rw [broadcastTo_apply _ h2 (ix5 (0 : Fin 1) s k h x) (ix5 (0 : Fin 1) s (0 : Fin 1) h x) (fun e => match e with
    | ⟨0, _⟩ => by show (0 : Nat) = if (1 : Nat) = 1 then 0 else _; rw [if_pos rfl]
    | ⟨1, _⟩ => by show s.val = if (60 : Nat) = 1 then 0 else s.val; rw [if_neg (by decide)]
    | ⟨2, _⟩ => by show (0 : Nat) = if (1 : Nat) = 1 then 0 else _; rw [if_pos rfl]
    | ⟨3, _⟩ => by show h.val = if (32 : Nat) = 1 then 0 else h.val; rw [if_neg (by decide)]
    | ⟨4, _⟩ => by show x.val = if (32 : Nat) = 1 then 0 else x.val; rw [if_neg (by decide)])]
  refine shapeCast_apply v h1 _ (ix4 (0 : Fin 1) s h x) ?_
  rw [Shape.rowMajor_val_four, Shape.rowMajor_val_five]
  show ((0 * 60 + s.val) * 32 + h.val) * 32 + x.val = (((0 * 60 + s.val) * 1 + 0) * 32 + h.val) * 32 + x.val
  omega

/-! ## The accumulator's new contents -/

/-- The value the kernel resets its accumulator to reads zero at every lane. -/
theorem reset_apply (y : S1x1x128.Idx) : k0_pay1 (F := Ideal) y = 0 := by
  unfold k0_pay1
  simp only [shapeCast_self]
  exact Ideal.ofBits_zero_f32

/-- The value the kernel stores back into its accumulator reads, at every lane, what the accumulator held there plus the
    tile's total contribution. -/
theorem step_apply (c o : FVec Ideal S1x60x4x32x32 .f32) (v : FVec Ideal S1x60x32x32 .f32) (acc : FVec Ideal S1x1x128 .f32)
    (y : S1x1x128.Idx) :
    k0_pay2 (F := Ideal) c o v acc y = acc y + tileTotal c o v := by
  unfold k0_pay2
  simp only [shapeCast_self]
  refine congrArg (acc y + ·) ?_
  unfold tileTotal
  rw [broadcast_apply]
  unfold extractAt
  rw [show (fun a => (⟨(![0] : Fin 1 → Nat) a, Facts₀.inpos_S1_p0 a⟩ : Fin (S1.size a))) = ix1 (0 : Fin 1) from
    funext fun e => match e with | ⟨0, _⟩ => rfl]
  refine (Ideal.multiReduction_add_single _ 0x00000000#32 Facts₀.reduces_S1x60_S1 (.inl rfl) rfl _).trans ?_
  refine Finset.sum_congr rfl fun (s : Fin 60) _ => ?_
  refine (congrArg _ (lift_s _ s)).trans ?_
  refine (Ideal.multiReduction_add_single _ 0x00000000#32 Facts₀.reduces_S1x60x4_S1x60 (.inl rfl) rfl _).trans ?_
  refine Finset.sum_congr rfl fun (k : Fin 4) _ => ?_
  refine (congrArg _ (lift_k _ s k)).trans ?_
  refine (Ideal.multiReduction_add_single _ 0x00000000#32 Facts₀.reduces_S1x60x4x32_S1x60x4 (.inl rfl) rfl _).trans ?_
  refine Finset.sum_congr rfl fun (h : Fin 32) _ => ?_
  refine (congrArg _ (lift_h _ s k h)).trans ?_
  refine (Ideal.multiReduction_add_single _ 0x00000000#32 Facts₀.reduces_S1x60x4x32x32_S1x60x4x32 (.inl rfl) rfl _).trans ?_
  refine Finset.sum_congr rfl fun (x : Fin 32) _ => ?_
  refine (congrArg _ (lift_x _ s k h x)).trans ?_
  rw [mulf_apply, mulf_apply, subf_apply, weight_apply]
  rfl

end Cert.KernelIdeal.TileValue

end
-- ==== Proof.Tiles.lean ====
/-
  The tiles the kernel is handed at a grid point, as parts of the whole arrays.

  The grid has 40 points, numbered t = 5b + s with b the batch (8 of them) and s the position along the accumulated
  axis (5 of them). At point t the three input windows hold block (b, s, 0, 0, 0) of the data arrays (blocks of shape
  [1, 60, 4, 32, 32] of arrays [8, 300, 4, 32, 32]) and block (b, s, 0, 0) of the weights (blocks [1, 60, 32, 32] of
  [8, 300, 32, 32]): entry (0, j, k, h, x) of a tile is entry (t / 5, 60·(t mod 5) + j, k, h, x) of its array. So the
  tile's total contribution is tile number t mod 5 of batch t / 5.
-/
import proofs.«143269_j33758442946604_1_alg».proof.Proof.Gen.KernelIdeal.Frame
import proofs.«143269_j33758442946604_1_alg».proof.Proof.WeightedSquares
import Idealize.ShloMosaic.Lib.Pipeline.Value

set_option maxRecDepth 16384

noncomputable section

open scoped BigOperators

namespace Cert.KernelIdeal.Tiles

open Cert.KernelIdeal Cert.KernelIdeal.Gen Cert.WeightedSquares
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The three tiles at a point and the three arrays, by their shapes. -/
abbrev oTile (c : Dev nD) (t : Fin cfg0.N) : Vec F S1x60x4x32x32 .f32 := iblk m c 0 t
abbrev cTile (c : Dev nD) (t : Fin cfg0.N) : Vec F S1x60x4x32x32 .f32 := iblk m c 1 t
abbrev vTile (c : Dev nD) (t : Fin cfg0.N) : Vec F S1x60x32x32 .f32 := iblk m c 2 t
abbrev oArr (c : Dev nD) : Vec F S8x300x4x32x32 .f32 := V m c main_arg0
abbrev cArr (c : Dev nD) : Vec F S8x300x4x32x32 .f32 := V m c main_arg1
abbrev vArr (c : Dev nD) : Vec F S8x300x32x32 .f32 := V m c main_arg2

theorem points : cfg0.N = 40 := N_0

/-- The batch of point n, and the row of its tile's entry j. -/
def batch (n : ℕ) (hn : n < cfg0.N) : Fin 8 := ⟨n / 5, by have := points; omega⟩
def row (n : ℕ) (hn : n < cfg0.N) (j : Fin 60) : Fin 300 := ⟨60 * (n % 5) + j.val, by have := j.isLt; omega⟩

/-- The block indices of the three input windows at point t: (t / 5, t mod 5, 0, …). -/
theorem index_o : ∀ t : Fin cfg0.N, win0_0.index t 0 = t.val / 5 ∧ win0_0.index t 1 = t.val % 5
    ∧ win0_0.index t 2 = 0 ∧ win0_0.index t 3 = 0 ∧ win0_0.index t 4 = 0 :=
  (by decide +kernel : ∀ t : Fin grid0.N, win0_0.index t 0 = t.val / 5 ∧ win0_0.index t 1 = t.val % 5
    ∧ win0_0.index t 2 = 0 ∧ win0_0.index t 3 = 0 ∧ win0_0.index t 4 = 0)
theorem index_c : ∀ t : Fin cfg0.N, win0_1.index t 0 = t.val / 5 ∧ win0_1.index t 1 = t.val % 5
    ∧ win0_1.index t 2 = 0 ∧ win0_1.index t 3 = 0 ∧ win0_1.index t 4 = 0 :=
  (by decide +kernel : ∀ t : Fin grid0.N, win0_1.index t 0 = t.val / 5 ∧ win0_1.index t 1 = t.val % 5
    ∧ win0_1.index t 2 = 0 ∧ win0_1.index t 3 = 0 ∧ win0_1.index t 4 = 0)
theorem index_v : ∀ t : Fin cfg0.N, win0_2.index t 0 = t.val / 5 ∧ win0_2.index t 1 = t.val % 5
    ∧ win0_2.index t 2 = 0 ∧ win0_2.index t 3 = 0 :=
  (by decide +kernel : ∀ t : Fin grid0.N, win0_2.index t 0 = t.val / 5 ∧ win0_2.index t 1 = t.val % 5
    ∧ win0_2.index t 2 = 0 ∧ win0_2.index t 3 = 0)

/-- An entry of the first data tile is the array's entry in batch t / 5, row 60·(t mod 5) + j. -/
theorem oTile_apply (c : Dev nD) (t : Fin cfg0.N) (j : Fin 60) (k : Fin 4) (h x : Fin 32) :
    oTile m c t (ix5 (0 : Fin 1) j k h x) = oArr m c (ix5 (batch t.val t.isLt) (row t.val t.isLt j) k h x) := by
  obtain ⟨e0, e1, e2, e3, e4⟩ := index_o t
  show iblk m c 0 t (ix5 (0 : Fin 1) j k h x) = V m c main_arg0 _
  unfold iblk
  rw [View.read_apply]
  show V m c main_arg0 _ = V m c main_arg0 _
  refine congrArg (V m c main_arg0) (funext fun a => Fin.ext ?_)
  match a with
  | ⟨0, _⟩ => show win0_0.index t 0 * 1 + 1 * 0 = t.val / 5; rw [e0]; omega
  | ⟨1, _⟩ => show win0_0.index t 1 * 60 + 1 * j.val = 60 * (t.val % 5) + j.val; rw [e1]; omega
  | ⟨2, _⟩ => show win0_0.index t 2 * 4 + 1 * k.val = k.val; rw [e2]; omega
  | ⟨3, _⟩ => show win0_0.index t 3 * 32 + 1 * h.val = h.val; rw [e3]; omega
  | ⟨4, _⟩ => show win0_0.index t 4 * 32 + 1 * x.val = x.val; rw [e4]; omega

/-- The same for the second data tile, -/
theorem cTile_apply (c : Dev nD) (t : Fin cfg0.N) (j : Fin 60) (k : Fin 4) (h x : Fin 32) :
    cTile m c t (ix5 (0 : Fin 1) j k h x) = cArr m c (ix5 (batch t.val t.isLt) (row t.val t.isLt j) k h x) := by
  obtain ⟨e0, e1, e2, e3, e4⟩ := index_c t
  show iblk m c 1 t (ix5 (0 : Fin 1) j k h x) = V m c main_arg1 _
  unfold iblk
  rw [View.read_apply]
  show V m c main_arg1 _ = V m c main_arg1 _
  refine congrArg (V m c main_arg1) (funext fun a => Fin.ext ?_)
  match a with
  | ⟨0, _⟩ => show win0_1.index t 0 * 1 + 1 * 0 = t.val / 5; rw [e0]; omega
  | ⟨1, _⟩ => show win0_1.index t 1 * 60 + 1 * j.val = 60 * (t.val % 5) + j.val; rw [e1]; omega
  | ⟨2, _⟩ => show win0_1.index t 2 * 4 + 1 * k.val = k.val; rw [e2]; omega
  | ⟨3, _⟩ => show win0_1.index t 3 * 32 + 1 * h.val = h.val; rw [e3]; omega
  | ⟨4, _⟩ => show win0_1.index t 4 * 32 + 1 * x.val = x.val; rw [e4]; omega

/-- and for the weight tile, which has no channel axis. -/
theorem vTile_apply (c : Dev nD) (t : Fin cfg0.N) (j : Fin 60) (h x : Fin 32) :
    vTile m c t (ix4 (0 : Fin 1) j h x) = vArr m c (ix4 (batch t.val t.isLt) (row t.val t.isLt j) h x) := by
  obtain ⟨e0, e1, e2, e3⟩ := index_v t
  show iblk m c 2 t (ix4 (0 : Fin 1) j h x) = V m c main_arg2 _
  unfold iblk
  rw [View.read_apply]
  show V m c main_arg2 _ = V m c main_arg2 _
  refine congrArg (V m c main_arg2) (funext fun a => Fin.ext ?_)
  match a with
  | ⟨0, _⟩ => show win0_2.index t 0 * 1 + 1 * 0 = t.val / 5; rw [e0]; omega
  | ⟨1, _⟩ => show win0_2.index t 1 * 60 + 1 * j.val = 60 * (t.val % 5) + j.val; rw [e1]; omega
  | ⟨2, _⟩ => show win0_2.index t 2 * 32 + 1 * h.val = h.val; rw [e2]; omega
  | ⟨3, _⟩ => show win0_2.index t 3 * 32 + 1 * x.val = x.val; rw [e3]; omega

end Cert.KernelIdeal.Tiles

/-! ## At the ideal values: the tile's total is the batch's tile number t mod 5 -/

namespace Cert.KernelIdeal.Tiles

open Cert.KernelIdeal Cert.KernelIdeal.Gen Cert.WeightedSquares
open Idealize.ShloMosaic Idealize.ShloMosaic.TcCoe Idealize.ShloMosaic.ValueIdx Idealize.SL.Sem

variable (m : (ℓ : Loc nD τ sig) → Buf (Elt Ideal) ℓ)

theorem tileTotal_eq (c : Dev nD) (t : Fin cfg0.N) :
    tileTotal (cTile m c t) (oTile m c t) (vTile m c t)
      = tileAt (oArr m c) (cArr m c) (vArr m c) (batch t.val t.isLt) (t.val % 5) := by
  unfold tileTotal tileAt
  refine Finset.sum_congr rfl fun j _ => ?_
  have hj : 60 * (t.val % 5) + j.val < 300 := by have := j.isLt; omega
  unfold rowAt
  rw [dif_pos hj]
  unfold rowTotal
  refine Finset.sum_congr rfl fun k _ => Finset.sum_congr rfl fun h _ => Finset.sum_congr rfl fun x _ => ?_
  rw [oTile_apply, cTile_apply, vTile_apply]
  rfl

end Cert.KernelIdeal.Tiles

end
-- ==== Proof.Running.lean ====
/-
  The accumulator after every grid point, and the output block at a batch's last point.

  Number the points t = 5b + s. By induction on t the accumulator holds after point t, at every one of its 128 lanes,
  the sum of tiles 0, …, s of batch b: at s = 0 the zero it was reset to plus tile 0, and for s > 0 what point t − 1
  left (tiles 0, …, s − 1 of the same batch, since t − 1 = 5b + (s − 1)) plus tile s. At s = 4 that is the whole batch,
  and the output block holds the same.
-/
import proofs.«143269_j33758442946604_1_alg».proof.Proof.Stores
import proofs.«143269_j33758442946604_1_alg».proof.Proof.TileValue
import proofs.«143269_j33758442946604_1_alg».proof.Proof.Tiles

set_option maxRecDepth 16384

noncomputable section

open scoped BigOperators

namespace Cert.KernelIdeal.Running

open Cert.KernelIdeal Cert.KernelIdeal.Gen Cert.KernelIdeal.Tiles Cert.WeightedSquares
open Idealize.ShloMosaic Idealize.ShloMosaic.TcCoe Idealize.ShloMosaic.ValueIdx Idealize.SL.Sem

variable (m : (ℓ : Loc nD τ sig) → Buf (Elt Ideal) ℓ)

/-- At a point with s = 0 the accumulator ends at tile 0 of its batch (the zero it was reset to adds nothing). -/
theorem acc_at_first (c : Dev nD) (t : Fin cfg0.N) (h0 : t.val % 5 = 0) (h1 : ¬t.val % 5 = 4) (y : S1x1x128.Idx) :
    (outsAt0 m c t.val t.isLt).2 y
      = tileAt (oArr m c) (cArr m c) (vArr m c) (batch t.val t.isLt) (t.val % 5) := by
  rw [outsAt0_A m c t h0 h1]
  dsimp only
  refine (congrFun (Stores.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)) y).trans ?_
  refine (TileValue.step_apply (cTile m c t) (oTile m c t) (vTile m c t) (k0_pay1 (F := Ideal)) y).trans ?_
  rw [TileValue.reset_apply, zero_add]
  exact tileTotal_eq m c t

/-- At a point with 0 < s < 4 it ends at what the point before left plus the point's tile. -/
theorem acc_at_middle (c : Dev nD) (t : Fin cfg0.N) (h0 : ¬t.val % 5 = 0) (h1 : ¬t.val % 5 = 4) (y : S1x1x128.Idx) :
    (outsAt0 m c t.val t.isLt).2 y
      = (outsAt0 m c (t.val - 1) (Nat.lt_of_le_of_lt (Nat.sub_le _ _) t.isLt)).2 y
        + tileAt (oArr m c) (cArr m c) (vArr m c) (batch t.val t.isLt) (t.val % 5) := by
  rw [outsAt0_B m c t h0 h1]
  dsimp only
  refine (congrFun (Stores.acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2) y).trans ?_
  refine (TileValue.step_apply (cTile m c t) (oTile m c t) (vTile m c t) (outsAt0 m c (t.val - 1) (Nat.lt_of_le_of_lt (Nat.sub_le _ _) t.isLt)).2 y).trans ?_
  rw [tileTotal_eq]

/-- At a point with s = 4 likewise, -/
theorem acc_at_last (c : Dev nD) (t : Fin cfg0.N) (h0 : ¬t.val % 5 = 0) (h1 : t.val % 5 = 4) (y : S1x1x128.Idx) :
    (outsAt0 m c t.val t.isLt).2 y
      = (outsAt0 m c (t.val - 1) (Nat.lt_of_le_of_lt (Nat.sub_le _ _) t.isLt)).2 y
        + tileAt (oArr m c) (cArr m c) (vArr m c) (batch t.val t.isLt) (t.val % 5) := by
  rw [outsAt0_C m c t h0 h1]
  dsimp only
  refine (congrFun (Stores.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2) y).trans ?_
  refine (TileValue.step_apply (cTile m c t) (oTile m c t) (vTile m c t) (outsAt0 m c (t.val - 1) (Nat.lt_of_le_of_lt (Nat.sub_le _ _) t.isLt)).2 y).trans ?_
  rw [tileTotal_eq]

/-- and the output block ends at what the accumulator ends at. -/
theorem out_at_last (c : Dev nD) (t : Fin cfg0.N) (h0 : ¬t.val % 5 = 0) (h1 : t.val % 5 = 4) :
    (outsAt0 m c t.val t.isLt).1 = (outsAt0 m c t.val t.isLt).2 := by
  rw [outsAt0_C m c t h0 h1]
  dsimp only
  exact (Stores.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2).trans
    (Stores.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2).symm

/-- After point n the accumulator holds, at every lane, tiles 0, …, n mod 5 of batch n / 5. -/
theorem acc_after (c : Dev nD) : ∀ (n : ℕ) (hn : n < cfg0.N) (y : S1x1x128.Idx),
    (outsAt0 m c n hn).2 y = runningTotal (oArr m c) (cArr m c) (vArr m c) (batch n hn) (n % 5)
  | 0, hn, y =>
    (acc_at_first m c ⟨0, hn⟩ (Nat.zero_mod 5) (show ¬(0 % 5 = 4) from by decide) y).trans (runningTotal_zero _ _ _ _).symm
  | n + 1, hn, y => by
    have hN : n + 1 < 40 := lt_of_lt_of_eq hn points
    by_cases h0 : (n + 1) % 5 = 0
    · have h1 : ¬(n + 1) % 5 = 4 := by omega
      refine (acc_at_first m c ⟨n + 1, hn⟩ h0 h1 y).trans ?_
      show tileAt _ _ _ _ ((n + 1) % 5) = runningTotal _ _ _ _ ((n + 1) % 5)
      rw [h0, runningTotal_zero]
    · have ih := acc_after c n (Nat.lt_of_succ_lt hn) y
      have hb : batch n (Nat.lt_of_succ_lt hn) = batch (n + 1) hn := Fin.ext (by show n / 5 = (n + 1) / 5; omega)
      have hk : (n + 1) % 5 = n % 5 + 1 := by omega
      have step : (outsAt0 m c (n + 1) hn).2 y
          = (outsAt0 m c n (Nat.lt_of_succ_lt hn)).2 y
            + tileAt (oArr m c) (cArr m c) (vArr m c) (batch (n + 1) hn) ((n + 1) % 5) := by
        by_cases h1 : (n + 1) % 5 = 4
        · exact acc_at_last m c ⟨n + 1, hn⟩ h0 h1 y
        · exact acc_at_middle m c ⟨n + 1, hn⟩ h0 h1 y
      rw [step, ih, hb, hk, runningTotal_succ]

/-- At a batch's last point the output block holds, at every lane, the whole batch. -/
theorem out_after (c : Dev nD) (t : Fin cfg0.N) (h1 : t.val % 5 = 4) (y : S1x1x128.Idx) :
    (outsAt0 m c t.val t.isLt).1 y = batchTotal (oArr m c) (cArr m c) (vArr m c) (batch t.val t.isLt) := by
  rw [out_at_last m c t (by omega) h1, acc_after m c t.val t.isLt y, h1, runningTotal_four]

end Cert.KernelIdeal.Running

end
-- ==== Proof.Result.lean ====
/-
  What the kernel program returns.

  The region's result array has shape [8, 1, 128]; its block (b, 0, 0), of shape [1, 1, 128], is written back once, at
  the last point of batch b, and then holds the batch's total at every lane. The eight blocks tile the array, so after
  the region the array holds at (b, 0, l) the total of batch b. The lines after the region take lane 0 of every row,
  add the eight numbers to a zero, and divide by 1024.
-/
import proofs.«143269_j33758442946604_1_alg».proof.Proof.Running
import Idealize.ShloMosaic.Lib.StableHlo.Run

set_option maxRecDepth 16384

noncomputable section

open scoped BigOperators

namespace Cert.KernelIdeal.Result

open Cert.KernelIdeal Cert.KernelIdeal.Gen Cert.KernelIdeal.Tiles Cert.WeightedSquares
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region's result array: row b holds the total of batch b, at every lane. -/
def batchRows (c : Dev nD) : Vec Ideal S8x1x128 .f32 :=
  fun i => batchTotal (oArr m c) (cArr m c) (vArr m c) (i 0)

/-- The output window's block index at point t: (t / 5, 0, 0). -/
theorem index_out : ∀ t : Fin cfg0.N, win0_3.index t 0 = t.val / 5 ∧ win0_3.index t 1 = 0 ∧ win0_3.index t 2 = 0 :=
  (by decide +kernel : ∀ t : Fin grid0.N, win0_3.index t 0 = t.val / 5 ∧ win0_3.index t 1 = 0 ∧ win0_3.index t 2 = 0)

/-- What a batch's last point writes back is that batch's row of `batchRows`. -/
theorem flushed_eq (c : Dev nD) (t : Fin cfg0.N) (hf : (cfg0.win 3).flush t = true) :
    (dats m 0 c).flushed 3 t = ((cfg0.win 3).blk t).view.read (Elt Ideal) (batchRows m c) := by
  have h4 : t.val % 5 = 4 := (flush0_3 t).mp hf
  obtain ⟨e0, e1, e2⟩ := index_out t
  funext y
  show (dats m 0 c).after 3 t ((cfg0.win 3).xinj (grid0.coords t) y) = _
  rw [after0_3, View.read_apply]
  refine (Running.out_after m c t h4 _).trans ?_
  show batchTotal _ _ _ (batch t.val t.isLt) = batchTotal _ _ _ ((((cfg0.win 3).blk t).view.emb y) 0)
  refine congrArg _ (Fin.ext ?_)
  show t.val / 5 = win0_3.index t 0 * 1 + 1 * (y 0).val
  have hy : (y 0).val < 1 := (y 0).isLt
  rw [e0]; omega

/-- An index of the result array is in point t's block iff each coordinate is in the block's range. -/
theorem mem_block (t : Fin cfg0.N) (i : S8x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v0).slice (win0_3.rect t)).set ↔ _
  rw [View.set_slice_whole, Rect.mem_set_unit]
  exact Iff.rfl

/-- Every index (b, 0, l) is in the block written back at the last point of batch b. -/
theorem covered (i : S8x1x128.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 128 := (i 2).isLt
  have hN := points
  have ht : 5 * (i 0).val + 4 < cfg0.N := by omega
  obtain ⟨e0, e1, e2⟩ := index_out ⟨5 * (i 0).val + 4, ht⟩
  have e0' : win0_3.index ⟨5 * (i 0).val + 4, ht⟩ 0 = (5 * (i 0).val + 4) / 5 := e0
  refine ⟨⟨5 * (i 0).val + 4, ht⟩, (flush0_3 _).mpr (by show (5 * (i 0).val + 4) % 5 = 4; omega), ?_⟩
  rw [mem_block]
  intro a
  match a with
  | ⟨0, _⟩ =>
    show win0_3.index ⟨5 * (i 0).val + 4, ht⟩ 0 * 1 ≤ (i 0).val ∧ (i 0).val < win0_3.index ⟨5 * (i 0).val + 4, ht⟩ 0 * 1 + 1
    rw [e0']; omega
  | ⟨1, _⟩ =>
    show win0_3.index ⟨5 * (i 0).val + 4, ht⟩ 1 * 1 ≤ (i 1).val ∧ (i 1).val < win0_3.index ⟨5 * (i 0).val + 4, ht⟩ 1 * 1 + 1
    rw [e1]; omega
  | ⟨2, _⟩ =>
    show win0_3.index ⟨5 * (i 0).val + 4, ht⟩ 2 * 128 ≤ (i 2).val ∧ (i 2).val < win0_3.index ⟨5 * (i 0).val + 4, ht⟩ 2 * 128 + 128
    rw [e2]; omega

/-- So after the region the result array is `batchRows`. -/
theorem final_rows (c : Dev nD) : (dats m 0 c).arrAt 3 cfg0.N = batchRows m c :=
  (dats m 0 c).arrAt_eq_of_cover 3 (batchRows m c) (flushed_eq m c) covered

/-- The lines after the region, applied to the result array: lane 0 of every row, the eight numbers added to a zero,
    the sum divided by 1024. -/
def loss (rows : Vec Ideal S8x1x128 .f32) : Vec Ideal S_ .f32 :=
  Host.divf (F := Ideal)
    (Host.reduceAdd (F := Ideal)
      (shapeCast S8 (extractStridedSlice S8x1x1 ![0, 0, 0] rows Facts₀.slices_S8x1x128_S8x1x1_0_0_0) Facts₀.shapeCasts_S8x1x1_S8)
      (constant (F := Ideal) S_ .f32 0x00000000#32) Facts₀.reducesTo_S8_S_d0 Facts₀.h_S_)
    (constant (F := Ideal) S_ .f32 0x44800000#32)

/-- The returned buffer after the whole program is `loss` of `batchRows`. -/
theorem tail_eq (c : Dev nD) :
    Pipeline.afterTail₀ cfgs (dats m) 0 (V0 m) [hostOps1] c main_v4 = loss (batchRows m c) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v0)
      = batchRows m c from
    (Pipeline.withArrays_arr spec0 launch0.win.arr_inj c (V0 m c) (fun w => (dats m 0 c).arrAt w (cfgs 0).N) 3).trans
      (final_rows m c)]
  rfl

/-- The returned buffer is one of those the region passes by. -/
theorem result_bypasses : main_v4 ∈ Pipeline.restRefs sig (cfgs 0).spec :=
  Pipeline.mem_restRefs_of main_v4 rfl (fun w => by fin_cases w <;> decide)

/-- The run of the whole program, read: the returned buffer at `loss` of `batchRows`, the arguments unchanged. -/
theorem run : θ_run defs (onTc (τ := τ) (main (F := Ideal))) ⟨m, fun _ => 0, ρ⟩ fun r => ∀ c : Dev nD,
      r.2.mem ((c.tc : Thread nD τ).loc main_v4) = loss (batchRows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 result_bypasses).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.Result

end
-- ==== Proof.Agreement.lean ====
/-
  The two programs return the same number.

  The reference multiplies every entry's weight (the weight array repeated along the channel axis) by the squared
  difference, adds all products to a zero, and divides by 1024. The kernel program adds the eight batch totals to a
  zero and divides by 1024. A product w·d² is the entry's contribution d²·w (multiplication of extended reals commutes),
  the eight batch totals together are the sum of all contributions, and the zero and the divisor are the same words on
  both sides.
-/
import proofs.«143269_j33758442946604_1_alg».proof.Proof.Result
import proofs.«143269_j33758442946604_1_alg».proof.Proof.Gen.ReferenceIdeal.Read

noncomputable section

open scoped BigOperators

namespace Cert.Agreement

open Cert.WeightedSquares
open Idealize.ShloMosaic Idealize.ShloMosaic.ValueIdx Idealize.ShloMosaic.IdxSums

/-- Lane 0 of every row of an [8, 1, 128] array, added to a zero: the zero plus the sum over b of the entry (b, 0, 0). -/
theorem lane_sum (rows : FVec Ideal Cert.KernelIdeal.S8x1x128 .f32) (i : Cert.KernelIdeal.S_.Idx) :
    Host.reduceAdd (F := Ideal)
        (shapeCast Cert.KernelIdeal.S8 (extractStridedSlice Cert.KernelIdeal.S8x1x1 ![0, 0, 0] rows
          Cert.KernelIdeal.Facts₀.slices_S8x1x128_S8x1x1_0_0_0) Cert.KernelIdeal.Facts₀.shapeCasts_S8x1x1_S8)
        (constant (F := Ideal) Cert.KernelIdeal.S_ .f32 0x00000000#32) Cert.KernelIdeal.Facts₀.reducesTo_S8_S_d0
        Cert.KernelIdeal.Facts₀.h_S_ i
      = Ideal.ofBits .f32 0x00000000#32 + ∑ b : Fin 8, rows (ix3 b (0 : Fin 1) (0 : Fin 128)) := by
  simp only [Host.reduceAdd, Ideal.hostReduceAdd_def]
  refine (Ideal.hostReduceAdd_total Cert.KernelIdeal.Facts₀.reducesTo_S8_S_d0 (fun b => b.elim0) _ _ i).trans ?_
  refine congrArg₂ (· + ·) rfl ?_
  rw [sum_idx1]
  refine Finset.sum_congr rfl fun b _ => ?_
  rw [shapeCast_apply _ Cert.KernelIdeal.Facts₀.shapeCasts_S8x1x1_S8 (ix1 b) (ix3 b (0 : Fin 1) (0 : Fin 1)) (by
    rw [Shape.rowMajor_val_three, Shape.rowMajor_val_one]
    show (b.val * 1 + 0) * 1 + 0 = b.val
    omega)]
  unfold extractStridedSlice
  refine congrArg rows (funext fun a => Fin.ext ?_)
  match a with
  | ⟨0, _⟩ => show 0 + b.val = b.val; omega
  | ⟨1, _⟩ => rfl
  | ⟨2, _⟩ => rfl

/-- The reference's product at an entry is the entry's contribution. -/
theorem product_eq (O C : FVec Ideal Cert.ReferenceIdeal.S8x300x4x32x32 .f32) (V : FVec Ideal Cert.ReferenceIdeal.S8x300x32x32 .f32)
    (j : Cert.ReferenceIdeal.S8x300x4x32x32.Idx) :
    Cert.ReferenceIdeal.Read.val_main_v4 (F := Ideal) O C V j = contrib (O j) (C j) (V (ix4 (j 0) (j 1) (j 3) (j 4))) := by
  rw [Cert.ReferenceIdeal.Read.val_main_v4_apply, Cert.ReferenceIdeal.Read.val_main_v3_apply,
    Cert.ReferenceIdeal.Read.val_main_v2_apply, Cert.ReferenceIdeal.Read.val_main_v1_apply,
    Cert.ReferenceIdeal.Read.val_main_v0_apply]
  rw [show Cert.ReferenceIdeal.Read.idx_main_v2 (Cert.ReferenceIdeal.Read.idx_main_v3 j) = ix4 (j 0) (j 1) (j 3) (j 4) from
    funext fun a => match a with
      | ⟨0, _⟩ => rfl | ⟨1, _⟩ => rfl | ⟨2, _⟩ => rfl | ⟨3, _⟩ => rfl]
  show V _ * ((C j - O j) * (C j - O j)) = (C j - O j) * (C j - O j) * V _
  exact mul_comm _ _

/-- The kernel program's number, from a result array whose rows are the batch totals, is the reference's number. -/
theorem loss_eq (O C : FVec Ideal Cert.ReferenceIdeal.S8x300x4x32x32 .f32) (V : FVec Ideal Cert.ReferenceIdeal.S8x300x32x32 .f32) :
    Cert.KernelIdeal.Result.loss (fun i => batchTotal O C V (i 0)) = Cert.ReferenceIdeal.Read.val_main_v6 (F := Ideal) O C V := by
  funext i
  rw [Cert.ReferenceIdeal.Read.val_main_v6_apply]
  unfold Cert.KernelIdeal.Result.loss
  show FloatOps.hostDivf _ _ = FloatOps.hostDivf _ _
  refine congrArg₂ FloatOps.hostDivf ?_ rfl
  rw [lane_sum, Cert.ReferenceIdeal.Read.val_main_v5_apply, Cert.ReferenceIdeal.Read.val_main_cst_apply]
  refine congrArg₂ (· + ·) rfl ?_
  refine (sum_batchTotal O C V).trans ?_
  exact Finset.sum_congr rfl fun j _ => (product_eq O C V j).symm

end Cert.Agreement

end
-- ==== Proof.lean ====
/-
  A weighted squared-error loss: for arrays o, c of shape [8, 300, 4, 32, 32] and weights v of shape [8, 300, 32, 32] the
  number (1/1024) · Σ (c − o)² · v, the weight of entry (b, s, k, h, x) being v[b, s, h, x].

  The reference forms every product and takes one sum over all entries. The kernel walks a grid of 8 × 5 points; at
  point (b, s) it sums the contributions of 60 consecutive rows of batch b into a 128-lane accumulator (reset at s = 0),
  and at s = 4 it copies the accumulator to row b of an [8, 1, 128] result; the lines after the region add lane 0 of
  the eight rows and divide by 1024.

  Over the extended reals addition is commutative and associative, so the kernel's sum in pieces — one axis at a time
  inside a tile, tile after tile inside a batch, batch after batch at the end — is the reference's one sum, and the
  product order (d²·v against v·d²) does not matter. No finiteness of the inputs is needed for the value; the
  precondition is used by neither side.

  The modules: WeightedSquares (the quantity and how its pieces add up), TileValue (one step of the accumulator, read
  at a lane), Stores (what each course of the body leaves in the accumulator and the output block), Tiles (a tile as a
  part of the arrays), Running (the accumulator after every point, by induction), Result (the result array, the lines
  after the region, the run), Agreement (the reference's number is the same).
-/
import proofs.«143269_j33758442946604_1_alg».proof.Defs
import proofs.«143269_j33758442946604_1_alg».proof.Proof.Gen.Kernel
import proofs.«143269_j33758442946604_1_alg».proof.Proof.Gen.Kernel.Skeleton
import proofs.«143269_j33758442946604_1_alg».proof.Proof.Gen.Kernel.Launch
import proofs.«143269_j33758442946604_1_alg».proof.Proof.Gen.Kernel.Points
import proofs.«143269_j33758442946604_1_alg».proof.Proof.Gen.Kernel.Frame
import proofs.«143269_j33758442946604_1_alg».proof.Proof.Gen.KernelIdeal
import proofs.«143269_j33758442946604_1_alg».proof.Proof.Gen.KernelIdeal.Skeleton
import proofs.«143269_j33758442946604_1_alg».proof.Proof.Gen.KernelIdeal.Launch
import proofs.«143269_j33758442946604_1_alg».proof.Proof.Gen.KernelIdeal.Points
import proofs.«143269_j33758442946604_1_alg».proof.Proof.Gen.KernelIdeal.Frame
import proofs.«143269_j33758442946604_1_alg».proof.Proof.Gen.ReferenceIdeal
import proofs.«143269_j33758442946604_1_alg».proof.Proof.Gen.Pre_finite_inputs
import proofs.«143269_j33758442946604_1_alg».proof.Proof.Gen.ReferenceIdeal.Run
import proofs.«143269_j33758442946604_1_alg».proof.Proof.Gen.ReferenceIdeal.Read
import proofs.«143269_j33758442946604_1_alg».proof.Proof.Result
import proofs.«143269_j33758442946604_1_alg».proof.Proof.Agreement
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same number: the kernel program's run leaves (1/1024)·(0 + Σ_b (batch b's total)), the
    reference's (1/1024)·(0 + Σ over all entries of v·d²), of arguments that agree. -/
theorem algebraic : Cert.algebraic_KernelIdeal_ReferenceIdeal := by
  intro m ρ m' ρ' _ hagree
  refine ⟨fun c => Cert.KernelIdeal.Result.loss (Cert.KernelIdeal.Result.batchRows m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2]
  exact (Cert.Agreement.loss_eq _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
